-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024x1024x1 : S_.BroadcastsInDim S1x1024x1024x1 (![] : Fin 0 → Fin S1x1024x1024x1.rank)
  reducesTo_S1x1024x1024x1_S_d0_1_2_3 : S1x1024x1024x1.ReducesTo [0, 1, 2, 3] S_

variable [Facts]

def fn {F : FTy → Type} [FloatOps F] (main_arg0 : FVec F S16x4096x1024 .f32) (main_arg1 : FVec F S16x1024 .f32) (main_arg2 : FVec F S1x1024x1024x1 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1x1024x1024x1 .f32 := Host.absf main_arg2
  let main_cst_2 : FVec F S_ .f32 := constant S_ .f32 0x7F800000#32
  let main_v10 : FVec F S1x1024x1024x1 .f32 := broadcastInDim S1x1024x1024x1 ![] bcast_S_S1x1024x1024x1 main_cst_2
  let main_v11 : IVec S1x1024x1024x1 1 := cmpf .olt main_v9 main_v10
  let main_c_3 : IVec S_ 1 := constantI S_ 1 1#1
  let main_v12 : IVec S_ 1 := (fun x v => Host.reduce IntOp.andi x v reducesTo_S1x1024x1024x1_S_d0_1_2_3 h_S_) main_v11 main_c_3
  let main_v13 : IVec S_ 1 := andi main_v8 main_v12
  main_v13
-- ==== Kernel.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S1024x1024 : Shape := ⟨2, ![1024, 1024]⟩
abbrev S16x1x1024 : Shape := ⟨3, ![16, 1, 1024]⟩
abbrev S16x1024x4096 : Shape := ⟨3, ![16, 1024, 4096]⟩
abbrev S1x1x1024 : Shape := ⟨3, ![1, 1, 1024]⟩
abbrev S1x1024x256 : Shape := ⟨3, ![1, 1024, 256]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S1x1024x1024x1, .f32⟩
  | .hbm, ⟨3, _⟩ => ⟨S1024x1024, .f32⟩
  | .hbm, ⟨4, _⟩ => ⟨S16x1x1024, .f32⟩
  | .hbm, ⟨5, _⟩ => ⟨S16x1024x4096, .f32⟩
  | .hbm, ⟨6, _⟩ => ⟨S16x1024x4096, .f32⟩
  | .hbm, ⟨7, _⟩ => ⟨S16x4096x1024, .f32⟩
  | .local _ .vmem, ⟨0, _⟩ => ⟨S1024x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x1024x1024x1_S1024x1024 : S1x1024x1024x1.ShapeCasts S1024x1024
  bcast_S16x1024_S16x1x1024_0_2 : S16x1024.BroadcastsInDim S16x1x1024 (![0, 2] : Fin 2 → Fin S16x1x1024.rank)
  shapeCasts_S16x4096x1024_S16x1024x4096 : S16x4096x1024.ShapeCasts S16x1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S16x1024x4096_S16x4096x1024 : S16x1024x4096.ShapeCasts S16x4096x1024
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x4096.size a
  hwx0_2 : ∀ i : grid0.Coords, EltTy.bits .f32 = 32 ∨ (Rect.block (s := S16x1024x4096) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x1024x4096.size a
  hwx0_3 : ∀ i : grid0.Coords, EltTy.bits .f32 = 32 ∨ (Rect.block (s := S16x1024x4096) S1x1024x256.size (cc0_transform_3 i) (hinb0_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S1x1024x1024 : Shape := ⟨3, ![1, 1024, 1024]⟩
abbrev S_ : Shape := ⟨0, ![]⟩
abbrev S16x1x1024 : Shape := ⟨3, ![16, 1, 1024]⟩
abbrev S16x1024x1024 : Shape := ⟨3, ![16, 1024, 1024]⟩
abbrev S16x1024x1 : Shape := ⟨3, ![16, 1024, 1]⟩
abbrev S16x1024x4096 : Shape := ⟨3, ![16, 1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S1x1024x1024x1, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S16x1x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S_, .f32⟩
  | .hbm, ⟨16, _⟩ => ⟨S16x1024x1, .f32⟩
  | .hbm, ⟨17, _⟩ => ⟨S16x1024x1, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x4096, .f32⟩
  | .hbm, ⟨22, _⟩ => ⟨S16x1024x4096, .f32⟩
  | .hbm, ⟨23, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S1x1024x1024x1_S1x1024x1024 : S1x1024x1024x1.ShapeCasts S1x1024x1024
  bcast_S_S1x1024x1024 : S_.BroadcastsInDim S1x1024x1024 (![] : Fin 0 → Fin S1x1024x1024.rank)
  bcast_S16x1024_S16x1x1024_0_2 : S16x1024.BroadcastsInDim S16x1x1024 (![0, 2] : Fin 2 → Fin S16x1x1024.rank)
  bcast_S1x1024x1024_S16x1024x1024_0_1_2 : S1x1024x1024.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x1024_0_1_2 : S16x1024x1.BroadcastsInDim S16x1024x1024 (![0, 1, 2] : Fin 3 → Fin S16x1024x1024.rank)
  shapeCasts_S16x4096x1024_S16x1024x4096 : S16x4096x1024.ShapeCasts S16x1024x4096
  shapeCasts_S16x1024x4096_S16x4096x1024 : S16x1024x4096.ShapeCasts S16x4096x1024
  dot_S16x1024x1024_S16x1024x4096_S16x1024x4096_2_1_1_2_0_0_wf : DotDims.WF S16x1024x1024 S16x1024x4096 S16x1024x4096 [2] [1] [1] [2] [0] [0]

variable [Facts₀]

def dot_S16x1024x1024_S16x1024x4096_S16x1024x4096_2_1_1_2_0_0 : DotDims S16x1024x1024 S16x1024x4096 S16x1024x4096 where
  lhsContracting := [2]
  rhsContracting := [1]
  lhsNonContracting := [1]
  rhsNonContracting := [2]
  lhsBatch := [0]
  rhsBatch := [0]
  wf := dot_S16x1024x1024_S16x1024x4096_S16x1024x4096_2_1_1_2_0_0_wf

class Facts : Prop extends Facts₀ where

variable [Facts]
-- ==== Proof.Spec.lean ====
/-
  The value both programs compute, entry by entry.

  A linear layer whose weight is modulated per sample and then demodulated: for a weight matrix `w` (rows `o`, input
  features `i`) and one sample's style row `y`, the modulated row is `(2⁻⁵ · w o i) · y i`; its demodulation factor is the
  reciprocal square root of the row's sum of squares plus a small ε; and an output entry is the demodulated row
  contracted, over the 1024 input features, with one column `e` of the sample's input. The scale `2⁻⁵ = 1/√1024` and ε
  are kept as the binary words both programs print, so neither is ever evaluated.

  Everything is stated over plain coordinate functions on the extended reals, so that either program's arrays, however
  they are laid out, are compared with it by reading them at coordinates.
-/
import Idealize.ShloMosaic.PureOps.Ideal
import Idealize.ShloMosaic.Lib.ValueIdx

noncomputable section

namespace Cert.ModLinear

open Idealize.ShloMosaic

/-- Entry `i` of weight row `o` modulated by the style row `y`: `(2⁻⁵ · w o i) · y i`. -/
def wrow (w : Fin 1024 → Fin 1024 → EReal) (y : Fin 1024 → EReal) (o i : Fin 1024) : EReal :=
  (Ideal.ofBits .f32 0x3D000000#32 * w o i) * y i

/-- The demodulation factor of row `o`: `(Σ_i (modulated entry)² + ε)^(-1/2)`. -/
def dnorm (w : Fin 1024 → Fin 1024 → EReal) (y : Fin 1024 → EReal) (o : Fin 1024) : EReal :=
  Ideal.rsqrt ((∑ i : Fin 1024, wrow w y o i * wrow w y o i) + Ideal.ofBits .f32 0x322BCC77#32)

/-- One output entry: the demodulated row `o` contracted with the column `e` over the input features. -/
def outEntry (w : Fin 1024 → Fin 1024 → EReal) (y : Fin 1024 → EReal) (e : Fin 1024 → EReal) (o : Fin 1024) : EReal :=
  ∑ i : Fin 1024, (wrow w y o i * dnorm w y o) * e i

end Cert.ModLinear

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Payload.lean ====
/-
  What the kernel body stores at one grid point, read entry by entry on the extended reals.

  The body holds the whole weight matrix, one sample's style row and a 1024 × 256 tile of that sample's input. It
  modulates the weight by the style row, takes each row's sum of squares along the input features, multiplies the row by
  the reciprocal square root of that sum plus ε, and multiplies the resulting 1024 × 1024 tile into the input tile. Read
  at `(o, q)` this is `outEntry` of the weight, the style row and column `q` of the input tile: the two roundings to
  bf16 before the product are the identity on the extended reals, the product into a zero accumulator is the plain sum
  over the input features, and the row sum that keeps its axis is read back through the column it is laid out in.
-/
import proofs.«136877_j39444979646803_1_alg».proof.Proof.Gen.KernelIdeal.Skeleton
import proofs.«136877_j39444979646803_1_alg».proof.Proof.Spec
import proofs.«136877_j39444979646803_1_alg».proof.Proof.LibColumn
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.ModLinear Cert.Lib.Column

variable {F : FTy → Type} [FloatOps F]

/-! ## The body's intermediate tiles, named -/

/-- The weight modulated by the style row: `(2⁻⁵ · w) · y`, the row broadcast down the 1024 output rows. -/
def modW (x0 : Vec F S1024x1024 .f32) (x1 : Vec F S1x1x1024 .f32) : FVec F S1024x1024 .f32 :=
  mulf (mulf (broadcast S1024x1024 (Scalar.ofBits .f32 0x3D000000#32)) (shapeCast S1024x1024 x0 shapeCasts_S1024x1024_S1024x1024))
    (broadcastTo S1024x1024 (shapeCast S1x1024 x1 shapeCasts_S1x1x1024_S1x1024) broadcasts_S1x1024_S1024x1024)

/-- The demodulation factors as a 1024 × 1 column: the reciprocal square root of each row's sum of squares plus ε. -/
def colDn (x0 : Vec F S1024x1024 .f32) (x1 : Vec F S1x1x1024 .f32) : FVec F S1024x1 .f32 :=
  rsqrt (addf (shapeCast S1024x1 (multiReduction .add [1] S1024 (mulf (modW x0 x1) (modW x0 x1)) 0x00000000#32 reduces_S1024x1024_S1024 (.inl rfl) rfl) shapeCasts_S1024_S1024x1)
    (broadcast S1024x1 (Scalar.ofBits .f32 0x322BCC77#32)))

/-- The product's left operand: the demodulated weight tile, rounded to bf16. -/
def lhsTile (x0 : Vec F S1024x1024 .f32) (x1 : Vec F S1x1x1024 .f32) : FVec F S1024x1024 .bf16 :=
  truncf .bf16 (mulf (modW x0 x1) (broadcastTo S1024x1024 (colDn x0 x1) broadcasts_S1024x1_S1024x1024)) bitsLt_bf16_f32

/-- The product's right operand: the input tile without its leading unit axis, rounded to bf16. -/
def rhsTile (x2 : Vec F S1x1024x256 .f32) : FVec F S1024x256 .bf16 :=
  truncf .bf16 (shapeCast S1024x256 x2 shapeCasts_S1x1024x256_S1024x256) bitsLt_bf16_f32

/-- The stored value is the product of the two operands into a zero accumulator, with a leading unit axis put back. -/
theorem pay_eq (x0 : Vec F S1024x1024 .f32) (x1 : Vec F S1x1x1024 .f32) (x2 : Vec F S1x1024x256 .f32) :
    k0_pay1 x0 x1 x2 = shapeCast S1x1024x256 (matmul dot_S1024x1024_S1024x256_S1024x256_1_0_0_1_n_n none (lhsTile x0 x1) (rhsTile x2)
      (constant S1024x256 .f32 0x00000000#32)) shapeCasts_S1024x256_S1x1024x256 := rfl

/-! ## The tiles at coordinates, on the extended reals -/

/-- A vector reciprocal square root read at an index, on the extended reals. -/
theorem rsqrt_apply {s : Shape} {φ : FTy} (v : FVec Ideal s φ) (i : s.Idx) : rsqrt v i = Ideal.rsqrt (v i) := rfl

/-- Entry `(o, i)` of the modulated weight is `wrow` of the weight's entries and the style row's. -/
theorem modW_apply (x0 : Vec Ideal S1024x1024 .f32) (x1 : Vec Ideal S1x1x1024 .f32) (o i : Fin 1024) :
    modW x0 x1 (ix2 o i) = wrow (fun o i => x0 (ix2 o i)) (fun i => x1 (ix3 (0 : Fin 1) (0 : Fin 1) i)) o i := by
  unfold modW wrow
  rw [mulf_apply, mulf_apply, broadcast_apply, shapeCast_self, broadcastTo_1b_ab_apply, shapeCast_1ab_ab_apply]
  rfl

/-- Row `o` of the demodulation column is `dnorm`: the lane sum is the finite sum of the row's squares. -/
theorem colDn_apply (x0 : Vec Ideal S1024x1024 .f32) (x1 : Vec Ideal S1x1x1024 .f32) (o : Fin 1024) (u : Fin 1) :
    colDn x0 x1 (ix2 o u) = dnorm (fun o i => x0 (ix2 o i)) (fun i => x1 (ix3 (0 : Fin 1) (0 : Fin 1) i)) o := by
  unfold colDn dnorm
  rw [rsqrt_apply, addf_apply, shapeCast_a_a1_apply, broadcast_apply]
  refine congrArg Ideal.rsqrt (congrArg₂ (· + ·) ((rowSum_apply _ _ _ _ _ o).trans (Finset.sum_congr rfl fun k _ => ?_)) rfl)
  rw [mulf_apply, modW_apply]

/-- Entry `(o, i)` of the left operand: the modulated entry times its row's demodulation factor. -/
theorem lhsTile_apply (x0 : Vec Ideal S1024x1024 .f32) (x1 : Vec Ideal S1x1x1024 .f32) (o i : Fin 1024) :
    lhsTile x0 x1 (ix2 o i) = wrow (fun o i => x0 (ix2 o i)) (fun i => x1 (ix3 (0 : Fin 1) (0 : Fin 1) i)) o i
      * dnorm (fun o i => x0 (ix2 o i)) (fun i => x1 (ix3 (0 : Fin 1) (0 : Fin 1) i)) o := by
  unfold lhsTile
  rw [truncf_apply, mulf_apply, modW_apply, broadcastTo_a1_ab_apply, colDn_apply]

/-- Entry `(i, q)` of the right operand is the input tile's entry `(0, i, q)`. -/
theorem rhsTile_apply (x2 : Vec Ideal S1x1024x256 .f32) (i : Fin 1024) (q : Fin 256) :
    rhsTile x2 (ix2 i q) = x2 (ix3 (0 : Fin 1) i q) := by
  unfold rhsTile
  rw [truncf_apply, shapeCast_1ab_ab_apply]

/-! ## The product at an entry: the sum over the input features -/

theorem lhs_axis0 (j : S1024x256.Idx) (k : dot_S1024x1024_S1024x256_S1024x256_1_0_0_1_n_n.contr.Idx) :
    (dot_S1024x1024_S1024x256_S1024x256_1_0_0_1_n_n.lhsIdx j k 0).val = (j 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem lhs_axis1 (j : S1024x256.Idx) (k : dot_S1024x1024_S1024x256_S1024x256_1_0_0_1_n_n.contr.Idx) :
    (dot_S1024x1024_S1024x256_S1024x256_1_0_0_1_n_n.lhsIdx j k 1).val = (k ⟨0, by decide⟩).val :=
  dot_S1024x1024_S1024x256_S1024x256_1_0_0_1_n_n.lhsIdx_val_of_single rfl j k
theorem rhs_axis0 (j : S1024x256.Idx) (k : dot_S1024x1024_S1024x256_S1024x256_1_0_0_1_n_n.contr.Idx) :
    (dot_S1024x1024_S1024x256_S1024x256_1_0_0_1_n_n.rhsIdx j k 0).val = (k ⟨0, by decide⟩).val :=
  dot_S1024x1024_S1024x256_S1024x256_1_0_0_1_n_n.rhsIdx_val_of_single rfl j k
theorem rhs_axis1 (j : S1024x256.Idx) (k : dot_S1024x1024_S1024x256_S1024x256_1_0_0_1_n_n.contr.Idx) :
    (dot_S1024x1024_S1024x256_S1024x256_1_0_0_1_n_n.rhsIdx j k 1).val = (j 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A 1024 × 1024 by 1024 × 256 product into the zero accumulator, at `(o, q)`: row `o` of the left operand against
    column `q` of the right one. -/
theorem matmul_tile_apply (l : FVec Ideal S1024x1024 .bf16) (r : FVec Ideal S1024x256 .bf16) (o : Fin 1024) (q : Fin 256) :
    matmul dot_S1024x1024_S1024x256_S1024x256_1_0_0_1_n_n none l r (constant S1024x256 .f32 0x00000000#32) (ix2 o q)
      = ∑ i : Fin 1024, l (ix2 o i) * r (ix2 i q) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 o q) ((contrEquiv1 dot_S1024x1024_S1024x256_S1024x256_1_0_0_1_n_n 1024 rfl rfl).symm k) = ix2 o k := funext fun a => Fin.ext (by
    match a with
    | ⟨0, _⟩ => exact lhs_axis0 _ _
    | ⟨1, _⟩ => exact (lhs_axis1 _ _).trans hk)
  have er : dot_S1024x1024_S1024x256_S1024x256_1_0_0_1_n_n.rhsIdx (ix2 o q) ((contrEquiv1 dot_S1024x1024_S1024x256_S1024x256_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The stored block at an entry -/

/-- Entry `(u, o, q)` of what the body stores is `outEntry` of the weight, the style row and column `q` of the input tile. -/
theorem pay_apply (x0 : Vec Ideal S1024x1024 .f32) (x1 : Vec Ideal S1x1x1024 .f32) (x2 : Vec Ideal S1x1024x256 .f32)
    (u : Fin 1) (o : Fin 1024) (q : Fin 256) :
    k0_pay1 x0 x1 x2 (ix3 u o q)
      = outEntry (fun o i => x0 (ix2 o i)) (fun i => x1 (ix3 (0 : Fin 1) (0 : Fin 1) i)) (fun i => x2 (ix3 (0 : Fin 1) i q)) o := by
  rw [pay_eq, shapeCast_ab_1ab_apply, matmul_tile_apply]
  unfold outEntry
  exact Finset.sum_congr rfl fun i _ => by rw [lhsTile_apply, rhsTile_apply]

end Cert.KernelIdeal.Tile

end
-- ==== Proof.Blocks.lean ====
/-
  From what each grid point writes back to the whole result array of the kernel region.

  The grid is 16 samples by 16 tiles of 256 positions. At point `(b, t)` the body sees the whole weight matrix, row `b`
  of the style array, and the 1024 × 256 tile of sample `b`'s input at positions `256 t … 256 t + 255`; it writes the
  1024 × 256 tile of sample `b`'s output at the same positions. Each entry it writes is `outEntry` of the weight, that
  style row and the input column at the entry's own position, so every tile is the restriction of one function of the
  three arrays, `outArr`; the tiles cover the array (position `l` lies in tile `l / 256`), so the array ends holding `outArr`.
-/
import proofs.«136877_j39444979646803_1_alg».proof.Proof.Gen.KernelIdeal.Frame
import proofs.«136877_j39444979646803_1_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Tile Idealize.ShloMosaic Idealize.ShloMosaic.TcCoe Idealize.SL.Sem
open Idealize.ShloMosaic.ValueIdx Cert.ModLinear
open Idealize.ShloMosaic.Pipeline (Dat)

variable (m : (ℓ : Loc nD τ sig) → Buf (Elt Ideal) ℓ) (ρ : Dev nD → PrngReg)

/-! ## The result array as one function of the three arrays the region is launched on -/

/-- Entry `(b, o, l)`: the weight, sample `b`'s style row, and column `l` of sample `b`'s input. -/
def outAt (Wt : Vec Ideal S1024x1024 .f32) (Yb : Vec Ideal S16x1x1024 .f32) (E : Vec Ideal S16x1024x4096 .f32)
    (b : Fin 16) (o : Fin 1024) (l : Fin 4096) : EReal :=
  outEntry (fun o i => Wt (ix2 o i)) (fun i => Yb (ix3 b (0 : Fin 1) i)) (fun i => E (ix3 b i l)) o

/-- The whole array. -/
def outArr (Wt : Vec Ideal S1024x1024 .f32) (Yb : Vec Ideal S16x1x1024 .f32) (E : Vec Ideal S16x1024x4096 .f32) :
    Vec Ideal S16x1024x4096 .f32 :=
  fun j => outAt Wt Yb E ⟨(j 0).val, (j 0).isLt⟩ ⟨(j 1).val, (j 1).isLt⟩ ⟨(j 2).val, (j 2).isLt⟩

/-- One stored entry is the array's entry at the position its tile places it, once each loaded block is known to be the
    part of its array that tile's sample and positions select. Stated over plain blocks and arrays. -/
theorem block_entry (Wt : Vec Ideal S1024x1024 .f32) (Yb : Vec Ideal S16x1x1024 .f32) (E : Vec Ideal S16x1024x4096 .f32)
    (x0 : Vec Ideal S1024x1024 .f32) (x1 : Vec Ideal S1x1x1024 .f32) (x2 : Vec Ideal S1x1024x256 .f32)
    (b : Fin 16) (lt : Fin 16)
    (h0 : ∀ o i : Fin 1024, x0 (ix2 o i) = Wt (ix2 o i))
    (h1 : ∀ i : Fin 1024, x1 (ix3 (0 : Fin 1) (0 : Fin 1) i) = Yb (ix3 b (0 : Fin 1) i))
    (h2 : ∀ (i : Fin 1024) (q : Fin 256), x2 (ix3 (0 : Fin 1) i q)
      = E (ix3 b i (⟨lt.val * 256 + q.val, by have := lt.isLt; have := q.isLt; omega⟩ : Fin 4096)))
    (y : S1x1024x256.Idx) (j : S16x1024x4096.Idx)
    (hj0 : (j 0).val = b.val) (hj1 : (j 1).val = (y 1).val) (hj2 : (j 2).val = lt.val * 256 + (y 2).val) :
    k0_pay1 x0 x1 x2 y = outArr Wt Yb E j := by
  obtain ⟨u, o, q, rfl⟩ : ∃ (u : Fin 1) (o : Fin 1024) (q : Fin 256), y = ix3 u o q := ⟨y 0, y 1, y 2, eq_ix3 y⟩
  rw [pay_apply]
  unfold outArr outAt
  have e0 : (⟨(j 0).val, (j 0).isLt⟩ : Fin 16) = b := Fin.ext hj0
  have e1 : (⟨(j 1).val, (j 1).isLt⟩ : Fin 1024) = o := Fin.ext hj1
  have e2 : (⟨(j 2).val, (j 2).isLt⟩ : Fin 4096) = ⟨lt.val * 256 + q.val, by have := lt.isLt; have := q.isLt; omega⟩ := Fin.ext hj2
  rw [e0, e1, e2]
  simp only [h0, h1, h2]

/-! ## The printed index maps, decided over the 256 points -/

theorem hz2 : (![0, 0] : Fin 2 → Nat) = fun _ => 0 := funext fun a => by fin_cases a <;> rfl
theorem hz3 : (![0, 0, 0] : Fin 3 → Nat) = fun _ => 0 := funext fun a => by fin_cases a <;> rfl

/-- The weight's window stays at block (0, 0); the style window follows the output's sample and stays at 0 on its other
    axes; the input window has the output's block indices; the output's are a sample below 16, 0, and a tile below 16. -/
theorem idx_facts : ∀ t : Fin cfg0.N,
    win0_0.index t (0 : Fin 2) = 0 ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) < 16 ∧ win0_3.index t (1 : Fin 3) = 0 ∧ win0_3.index t (2 : Fin 3) < 16 :=
  (by decide +kernel : ∀ t : Fin grid0.N, _)

/-- Every (sample, tile) pair is some point's output block. -/
theorem idx_onto : ∀ (q0 : Fin 16) (q2 : Fin 16), ∃ t : Fin cfg0.N, win0_3.index t = ![q0.val, 0, q2.val] :=
  (by decide +kernel : ∀ (q0 : Fin 16) (q2 : Fin 16), ∃ t : Fin grid0.N, win0_3.index t = ![q0.val, 0, q2.val])

/-! ## Each input block, read where its window's index map puts it -/

/-- The weight's block is the whole weight array. -/
theorem iblk0_apply (c : Dev nD) (t : Fin cfg0.N) (x : S1024x1024.Idx) :
    (iblk m c 0 t : Vec Ideal S1024x1024 .f32) x = (V m c main_v0 : Vec Ideal S1024x1024 .f32) x := by
  obtain ⟨a0, a1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * (x 0).val = (x 0).val; omega
  | ⟨1, _⟩ => show win0_0.index t (1 : Fin 2) * 1024 + 1 * (x 1).val = (x 1).val; omega

/-- The style block is the row of the style array at the output block's sample. -/
theorem iblk1_apply (c : Dev nD) (t : Fin cfg0.N) (x : S1x1x1024.Idx) (k : S16x1x1024.Idx)
    (hk0 : (k 0).val = win0_3.index t (0 : Fin 3) + (x 0).val) (hk1 : (k 1).val = (x 1).val) (hk2 : (k 2).val = (x 2).val) :
    (iblk m c 1 t : Vec Ideal S1x1x1024 .f32) x = (V m c main_v1 : Vec Ideal S16x1x1024 .f32) k := by
  obtain ⟨-, -, b0, b1, b2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * (x 0).val = (k 0).val; omega
  | ⟨1, _⟩ => show win0_1.index t (1 : Fin 3) * 1 + 1 * (x 1).val = (k 1).val; omega
  | ⟨2, _⟩ => show win0_1.index t (2 : Fin 3) * 1024 + 1 * (x 2).val = (k 2).val; omega

/-- The input block is the output block's sample and positions of the input array, all 1024 features. -/
theorem iblk2_apply (c : Dev nD) (t : Fin cfg0.N) (x : S1x1024x256.Idx) (k : S16x1024x4096.Idx)
    (hk0 : (k 0).val = win0_3.index t (0 : Fin 3) + (x 0).val) (hk1 : (k 1).val = (x 1).val)
    (hk2 : (k 2).val = win0_3.index t (2 : Fin 3) * 256 + (x 2).val) :
    (iblk m c 2 t : Vec Ideal S1x1024x256 .f32) x = (V m c main_v2 : Vec Ideal S16x1024x4096 .f32) k := by
  obtain ⟨-, -, -, -, -, c0, c1, c2, -⟩ := idx_facts t
  unfold iblk
  rw [View.read_apply]
  show V m c main_v2 _ = V m c main_v2 _
  congr 1
  funext a
  apply Fin.ext
  match a with
  | ⟨0, _⟩ => show win0_2.index t (0 : Fin 3) * 1 + 1 * (x 0).val = (k 0).val; omega
  | ⟨1, _⟩ => show win0_2.index t (1 : Fin 3) * 1024 + 1 * (x 1).val = (k 1).val; omega
  | ⟨2, _⟩ => show win0_2.index t (2 : Fin 3) * 256 + 1 * (x 2).val = (k 2).val; omega

/-! ## What a point writes back, the cover, and the array after the run -/

/-- What point `t` writes back is block `t` of `outArr` of the arrays as the region finds them. -/
theorem flushed_eq (c : Dev nD) (t : Fin cfg0.N) :
    (dats m 0 c).flushed 3 t
      = ((cfg0.win 3).blk t).view.read (Elt Ideal) (outArr (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1024x1024) hz2, View.ld_unit_zero (S := S1x1x1024) hz3, View.ld_unit_zero (S := S1x1024x256) hz3]
  obtain ⟨-, -, -, -, -, -, -, -, d0, d1, d2⟩ := idx_facts t
  funext y
  show k0_pay1 (iblk m c 0 t) (iblk m c 1 t) (iblk m c 2 t) y
    = outArr (V m c main_v0) (V m c main_v1) (V m c main_v2) (((cfg0.win 3).blk t).view.emb y)
  have hy0 : (y 0).val < 1 := (y 0).isLt
  refine block_entry _ _ _ _ _ _ ⟨win0_3.index t (0 : Fin 3), d0⟩ ⟨win0_3.index t (2 : Fin 3), d2⟩ ?_ ?_ ?_ y _ ?_ ?_ ?_
  · intro o i
    exact iblk0_apply m c t (ix2 o i)
  · intro i
    exact iblk1_apply m c t (ix3 (0 : Fin 1) (0 : Fin 1) i) (ix3 ⟨win0_3.index t (0 : Fin 3), d0⟩ (0 : Fin 1) i) rfl rfl rfl
  · intro i q
    exact iblk2_apply m c t (ix3 (0 : Fin 1) i q) _ rfl rfl rfl
  · show win0_3.index t (0 : Fin 3) * 1 + 1 * (y 0).val = win0_3.index t (0 : Fin 3); omega
  · show win0_3.index t (1 : Fin 3) * 1024 + 1 * (y 1).val = (y 1).val; omega
  · show win0_3.index t (2 : Fin 3) * 256 + 1 * (y 2).val = win0_3.index t (2 : Fin 3) * 256 + (y 2).val; omega

/-- An index of the array is in point `t`'s block iff each coordinate is in the block's range on its axis. -/
theorem mem_blk (t : Fin cfg0.N) (i : S16x1024x4096.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v3).slice (win0_3.rect t)).set ↔ _
  rw [View.set_slice_whole, Rect.mem_set_unit]
  exact Iff.rfl

/-- Every index is in some point's block: sample `i 0`, tile `i 2 / 256`. -/
theorem cover (i : S16x1024x4096.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 4096 := (i 2).isLt
  obtain ⟨t, ht⟩ := idx_onto ⟨(i 0).val, h0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

/-- The result array of the region after the run is `outArr` of the arrays as the region finds them. -/
theorem final (c : Dev nD) :
    (dats m 0 c).arrAt 3 cfg0.N = outArr (V m c main_v0) (V m c main_v1) (V m c main_v2) :=
  (dats m 0 c).arrAt_eq_of_cover 3 _ (fun t _ => flushed_eq m c t) cover

end Cert.KernelIdeal.Blocks

end
-- ==== Proof.KernelRun.lean ====
/-
  The kernel program's run with its result named.

  Around the region the program only re-lays arrays: before it, the weight `[1, 1024, 1024, 1]` is viewed as
  `[1024, 1024]`, the style array `[16, 1024]` gets a unit middle axis, and the input `[16, 4096, 1024]` is viewed, with
  the same row-major order, as `[16, 1024, 4096]`; after it, the region's `[16, 1024, 4096]` output is viewed as
  `[16, 4096, 1024]`. So the result buffer ends holding that last view of `outArr` of the first three.
-/
import proofs.«136877_j39444979646803_1_alg».proof.Proof.Gen.KernelIdeal.Frame
import proofs.«136877_j39444979646803_1_alg».proof.Proof.Blocks
import Idealize.ShloMosaic.Lib.StableHlo.Run

noncomputable section

namespace Cert.KernelIdeal.Whole

open Cert.KernelIdeal Cert.KernelIdeal.Gen Cert.KernelIdeal.Blocks Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## The arrays the region is launched on -/

/-- The weight as the region finds it: the argument viewed as a matrix. -/
theorem V_weight (c : Dev nD) : (V m c main_v0 : Vec Ideal S1024x1024 .f32)
    = shapeCast S1024x1024 (m ((c : Thread nD τ).loc main_arg2)) shapeCasts_S1x1024x1024x1_S1024x1024 := by
  show StableHlo.after hostOps0 (fun b => m (c, b)) (Proc.devRef .tc main_v0) = _
  after_results <;> rfl

/-- The style array as the region finds it: the argument with a unit middle axis. -/
theorem V_style (c : Dev nD) : (V m c main_v1 : Vec Ideal S16x1x1024 .f32)
    = broadcastInDim S16x1x1024 ![0, 2] bcast_S16x1024_S16x1x1024_0_2 (m ((c : Thread nD τ).loc main_arg1)) := by
  show StableHlo.after hostOps0 (fun b => m (c, b)) (Proc.devRef .tc main_v1) = _
  after_results <;> rfl

/-- The input as the region finds it: the argument viewed as `[sample, feature, position]`. -/
theorem V_input (c : Dev nD) : (V m c main_v2 : Vec Ideal S16x1024x4096 .f32)
    = shapeCast S16x1024x4096 (m ((c : Thread nD τ).loc main_arg0)) shapeCasts_S16x4096x1024_S16x1024x4096 := by
  show StableHlo.after hostOps0 (fun b => m (c, b)) (Proc.devRef .tc main_v2) = _
  after_results <;> rfl

/-! ## The result buffer after the host line that follows the region -/

/-- The result: the region's output array viewed as `[16, 4096, 1024]`. -/
theorem tail_result (c : Dev nD) :
    (Pipeline.afterTail₀ cfgs (dats m) 0 (V0 m) [hostOps1] c main_v4 : Vec Ideal S16x4096x1024 .f32)
      = shapeCast S16x4096x1024 ((dats m 0 c).arrAt 3 cfg0.N) shapeCasts_S16x1024x4096_S16x4096x1024 := by
  unfold Pipeline.afterTail₀
  show StableHlo.after hostOps1 _ (Proc.devRef .tc main_v4) = _
  after_results
  exact congrArg (fun X => shapeCast S16x4096x1024 X shapeCasts_S16x1024x4096_S16x4096x1024)
    (Pipeline.withArrays_arr spec0 launch0.win.arr_inj c _ _ 3)

/-! ## The run -/

/-- The result of the whole program as a function of its three arguments. -/
def result (a0 : Vec Ideal S16x4096x1024 .f32) (a1 : Vec Ideal S16x1024 .f32) (a2 : Vec Ideal S1x1024x1024x1 .f32) :
    Vec Ideal S16x4096x1024 .f32 :=
  shapeCast S16x4096x1024
    (outArr (shapeCast S1024x1024 a2 shapeCasts_S1x1024x1024x1_S1024x1024)
      (broadcastInDim S16x1x1024 ![0, 2] bcast_S16x1024_S16x1x1024_0_2 a1)
      (shapeCast S16x1024x4096 a0 shapeCasts_S16x4096x1024_S16x1024x4096))
    shapeCasts_S16x1024x4096_S16x4096x1024

/-- Every weakly fair execution terminates with the result buffer at `result` of the arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_result m c).trans (by rw [Blocks.final, V_weight, V_style, V_input]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference, read entry by entry on the extended reals.

  The reference modulates the weight for all sixteen samples at once, sums each row's squares over the input features
  (from a zero start, which adds nothing), adds ε, takes the reciprocal square root, scales the rows, and contracts the
  result with the input re-laid as `[sample, feature, position]`. Read at `(b, o, l)` the contraction is `outEntry` of the
  weight, sample `b`'s style row, and column `l` of sample `b`'s re-laid input: the broadcasts only repeat entries, so
  each stage is the one before it at the coordinates the broadcast keeps.
-/
import proofs.«136877_j39444979646803_1_alg».proof.Proof.Gen.ReferenceIdeal.Read
import proofs.«136877_j39444979646803_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.ModLinear

variable (x0 : (⟨S16x4096x1024, .f32⟩ : BufTy).Contents (Elt Ideal)) (x1 : (⟨S16x1024, .f32⟩ : BufTy).Contents (Elt Ideal))
  (x2 : (⟨S1x1024x1024x1, .f32⟩ : BufTy).Contents (Elt Ideal))

/-- The modulated weight of sample `b` at `(o, i)`: the weight's entry `(0, o, i, 0)` scaled, times the style entry `(b, i)`. -/
theorem modulated_apply (b : Fin 16) (o i : Fin 1024) :
    val_main_v6 (F := Ideal) x1 x2 (ix3 b o i)
      = wrow (fun o i => x2 (ix4 (0 : Fin 1) o i (0 : Fin 1))) (fun i => x1 (ix2 b i)) o i := by
  rw [val_main_v6_apply, val_main_v4_apply, val_main_v2_apply, val_main_v1_apply, val_main_cst_apply, val_main_v0_apply,
    val_main_v5_apply, val_main_v3_apply]
  have e0 : idx_main_v0 (idx_main_v4 (ix3 b o i)) = ix4 (0 : Fin 1) o i (0 : Fin 1) := funext fun a => Fin.ext (by
    have ho := o.isLt
    have hi := i.isLt
    match a with
    | ⟨0, _⟩ => rfl
    | ⟨1, _⟩ => show ((0 * 1024 + o.val) * 1024 + i.val) / 1024 % 1024 = o.val; omega
    | ⟨2, _⟩ => show ((0 * 1024 + o.val) * 1024 + i.val) / 1 % 1024 = i.val; omega
    | ⟨3, _⟩ => rfl)
  have e3 : idx_main_v3 (idx_main_v5 (ix3 b o i)) = ix2 b i := funext fun a => Fin.ext (by
    match a with
    | ⟨0, _⟩ => rfl
    | ⟨1, _⟩ => rfl)
  rw [e0, e3]
  rfl

/-- The demodulation factor of sample `b`, row `o`: the host's sum from zero is the finite sum of the row's squares. -/
theorem demod_apply (b : Fin 16) (o : Fin 1024) (u : Fin 1) :
    val_main_v12 (F := Ideal) x1 x2 (ix3 b o u)
      = dnorm (fun o i => x2 (ix4 (0 : Fin 1) o i (0 : Fin 1))) (fun i => x1 (ix2 b i)) o := by
  rw [val_main_v12_apply, val_main_v11_apply, val_main_v9_apply, val_main_v8_apply, val_main_v10_apply, val_main_cst_1_apply,
    val_main_cst_0_apply]
  unfold dnorm
  simp only [Ideal.addf_def, Ideal.hostUnary_rsqrt_def, Ideal.ofBits_def, Ideal.ofBits_zero_f32, zero_add]
  refine congrArg Ideal.rsqrt (congrArg₂ (· + ·) (Finset.sum_congr rfl fun k _ => ?_) rfl)
  have e : idx_main_v8 (idx_main_v9 (ix3 b o u)) k = ix3 b o k := funext fun a => Fin.ext (by
    match a with
    | ⟨0, _⟩ => rfl
    | ⟨1, _⟩ => rfl
    | ⟨2, _⟩ => rfl)
  rw [e, val_main_v7_apply, modulated_apply]
  rfl

/-- The demodulated weight of sample `b` at `(o, i)`. -/
theorem demodulated_apply (b : Fin 16) (o i : Fin 1024) :
    val_main_v14 (F := Ideal) x1 x2 (ix3 b o i)
      = wrow (fun o i => x2 (ix4 (0 : Fin 1) o i (0 : Fin 1))) (fun i => x1 (ix2 b i)) o i
        * dnorm (fun o i => x2 (ix4 (0 : Fin 1) o i (0 : Fin 1))) (fun i => x1 (ix2 b i)) o := by
  rw [val_main_v14_apply, modulated_apply, val_main_v13_apply]
  have e : idx_main_v13 (ix3 b o i) = ix3 b o (0 : Fin 1) := funext fun a => Fin.ext (by
    match a with
    | ⟨0, _⟩ => rfl
    | ⟨1, _⟩ => rfl
    | ⟨2, _⟩ => rfl)
  rw [e, demod_apply]
  rfl

/-- The contraction at `(b, o, l)`: `outEntry` of the weight, sample `b`'s style row and column `l` of its re-laid input. -/
theorem contracted_apply (b : Fin 16) (o : Fin 1024) (l : Fin 4096) :
    val_main_v16 (F := Ideal) x0 x1 x2 (ix3 b o l)
      = outEntry (fun o i => x2 (ix4 (0 : Fin 1) o i (0 : Fin 1))) (fun i => x1 (ix2 b i))
          (fun i => val_main_v15 (F := Ideal) x0 (ix3 b i l)) o := by
  rw [val_main_v16_apply]
  unfold outEntry
  refine Finset.sum_congr rfl fun k _ => ?_
  have el : lidx_main_v16 (ix3 b o l) k = ix3 b o k := funext fun a => Fin.ext (by
    match a with
    | ⟨0, _⟩ => rfl
    | ⟨1, _⟩ => rfl
    | ⟨2, _⟩ => rfl)
  have er : ridx_main_v16 (ix3 b o l) k = ix3 b k l := funext fun a => Fin.ext (by
    match a with
    | ⟨0, _⟩ => rfl
    | ⟨1, _⟩ => rfl
    | ⟨2, _⟩ => rfl)
  rw [el, er, demodulated_apply]

end Cert.ReferenceIdeal.RefValue

end
-- ==== Proof.Bridge.lean ====
/-
  The reference's contraction is the kernel region's result array.

  Both are `outEntry` at every `(b, o, l)`; what differs is only how each program holds the weight and the style array
  when it uses them. The kernel views the weight `[1, 1024, 1024, 1]` as a matrix, the reference as `[1, 1024, 1024]`:
  entry `(o, i)` of either is the argument's entry `(0, o, i, 0)`, the same row-major position. The kernel reads the
  style array through a unit middle axis, the reference broadcasts it over the output rows: either way the entry used
  with sample `b` and feature `i` is the argument's `(b, i)`. The input is re-laid by the same view in both.
-/
import proofs.«136877_j39444979646803_1_alg».proof.Proof.RefValue
import proofs.«136877_j39444979646803_1_alg».proof.Proof.KernelRun
import Idealize.ShloMosaic.Lib.Pipeline.Value
import Idealize.ShloMosaic.Lib.ValueIdx

noncomputable section

namespace Cert.Bridge

open Idealize.ShloMosaic Idealize.ShloMosaic.ValueIdx Cert.ModLinear

/-- The reference's contracted array is `outArr` of the kernel's three re-laid arguments, entry by entry. -/
theorem contraction_eq (x0 : Vec Ideal Cert.KernelIdeal.S16x4096x1024 .f32) (x1 : Vec Ideal Cert.KernelIdeal.S16x1024 .f32)
    (x2 : Vec Ideal Cert.KernelIdeal.S1x1024x1024x1 .f32) :
    Cert.ReferenceIdeal.Read.val_main_v16 (F := Ideal) x0 x1 x2
      = Cert.KernelIdeal.Blocks.outArr
          (shapeCast Cert.KernelIdeal.S1024x1024 x2 Cert.KernelIdeal.Gen.shapeCasts_S1x1024x1024x1_S1024x1024)
          (broadcastInDim Cert.KernelIdeal.S16x1x1024 ![0, 2] Cert.KernelIdeal.Gen.bcast_S16x1024_S16x1x1024_0_2 x1)
          (shapeCast Cert.KernelIdeal.S16x1024x4096 x0 Cert.KernelIdeal.Gen.shapeCasts_S16x4096x1024_S16x1024x4096) := by
  funext j
  obtain ⟨b, o, l, rfl⟩ : ∃ (b : Fin 16) (o : Fin 1024) (l : Fin 4096), j = ix3 b o l := ⟨j 0, j 1, j 2, eq_ix3 j⟩
  rw [Cert.ReferenceIdeal.RefValue.contracted_apply]
  unfold Cert.KernelIdeal.Blocks.outArr Cert.KernelIdeal.Blocks.outAt
  show outEntry _ _ _ o = outEntry _ _ _ o
  congr 1
  · funext o i
    exact (shapeCast_apply x2 Cert.KernelIdeal.Gen.shapeCasts_S1x1024x1024x1_S1024x1024 (ix2 o i)
      (ix4 (0 : Fin 1) o i (0 : Fin 1)) (by
        rw [Shape.rowMajor_val_four, Shape.rowMajor_val_two]
        show ((0 * 1024 + o.val) * 1024 + i.val) * 1 + 0 = o.val * 1024 + i.val
        omega)).symm
  · funext i
    exact (broadcastInDim_apply _ Cert.KernelIdeal.Gen.bcast_S16x1024_S16x1x1024_0_2 x1 (ix3 b (0 : Fin 1) i) (ix2 b i)
      (fun a => match a with
        | ⟨0, _⟩ => by show b.val = if (16 : Nat) = 1 then 0 else b.val; rw [if_neg (by decide)]
        | ⟨1, _⟩ => by show i.val = if (1024 : Nat) = 1 then 0 else i.val; rw [if_neg (by decide)])).symm

end Cert.Bridge

end
-- ==== Proof.lean ====
/-
  A modulated, demodulated linear layer computed tile by tile, against the same layer computed whole, over the extended reals.

  For sample `b`, output row `o` and position `l` both programs compute
      Σ_i  (w_{b,o,i} · (Σ_{i'} w_{b,o,i'}² + ε)^(-1/2)) · E_{b,i,l},     w_{b,o,i} = (2⁻⁵ · W_{o,i}) · y_{b,i},
  where `E` is the input `[16, 4096, 1024]` viewed in row-major order as `[16, 1024, 4096]`, and the result
  `[16, 1024, 4096]` is viewed back as `[16, 4096, 1024]`. The scale `2⁻⁵ = 1/√1024` is an exact binary number and ε is
  the same word on both sides. The kernel recomputes the modulated weight at each of its 16 × 16 grid points and
  multiplies it, rounded to bf16, into a 256-position tile of `E`; on the extended reals the rounding is the identity and
  the product into a zero accumulator is the sum above, so no rearrangement of the sum, and no finiteness of the
  inputs, is needed: the two sides are the same expression entry by entry (`Cert.ModLinear.outEntry`).

  The modules: Spec (the entry), Payload (what the body stores at a grid point), Blocks (the tiles make up the region's
  result array), KernelRun (the re-layings around the region; the program's run), RefValue (the reference's stages at
  coordinates), Bridge (the two arrays are one). The three frames are the generated ones; the idealization rewrote
  nothing, so `preserves` is trivial.
-/
import proofs.«136877_j39444979646803_1_alg».proof.Defs
import proofs.«136877_j39444979646803_1_alg».proof.Proof.Gen.Kernel
import proofs.«136877_j39444979646803_1_alg».proof.Proof.Gen.Kernel.Frame
import proofs.«136877_j39444979646803_1_alg».proof.Proof.Gen.KernelIdeal
import proofs.«136877_j39444979646803_1_alg».proof.Proof.Gen.KernelIdeal.Frame
import proofs.«136877_j39444979646803_1_alg».proof.Proof.Gen.ReferenceIdeal
import proofs.«136877_j39444979646803_1_alg».proof.Proof.Gen.ReferenceIdeal.Run
import proofs.«136877_j39444979646803_1_alg».proof.Proof.Gen.ReferenceIdeal.Read
import proofs.«136877_j39444979646803_1_alg».proof.Proof.Gen.Pre_finite_inputs
import proofs.«136877_j39444979646803_1_alg».proof.Proof.KernelRun
import proofs.«136877_j39444979646803_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result buffer at
    `Cert.KernelIdeal.Whole.result` of the arguments: the kernel by its run, the reference because its contracted array
    is the kernel region's (`Cert.Bridge.contraction_eq`) and both view it back the same way. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v17_eq]
  unfold Cert.ReferenceIdeal.Read.val_main_v17 Cert.KernelIdeal.Whole.result
  rw [Cert.Bridge.contraction_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
